-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4x8192x8192 : Shape := ⟨3, ![4, 8192, 8192]⟩
abbrev S128x128 : Shape := ⟨2, ![128, 128]⟩
abbrev S4x128x128 : Shape := ⟨3, ![4, 128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4x8192x8192 : S_.BroadcastsInDim S4x8192x8192 (![] : Fin 0 → Fin S4x8192x8192.rank)
  reducesTo_S4x8192x8192_S_d0_1_2 : S4x8192x8192.ReducesTo [0, 1, 2] S_
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x128 .f32) (main_arg1 : FVec F S4x8192x8192 .f32) (main_arg2 : FVec F S128x128 .f32) (main_arg3 : FVec F S4x128x128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4x8192x8192 .f32 := Host.absf main_arg1
  let main_cst_0 : FVec F S_ .f32 := constant S_ .f32 0x7F800000#32
  let main_v5 : FVec F S4x8192x8192 .f32 := broadcastInDim S4x8192x8192 ![] bcast_S_S4x8192x8192 main_cst_0
  let main_v6 : IVec S4x8192x8192 1 := cmpf .olt main_v4 main_v5
  let main_c_1 : IVec S_ 1 := constantI S_ 1 1#1
  let main_v7 : IVec S_ 1 := (fun x v => Host.reduce IntOp.andi x v reducesTo_S4x8192x8192_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_v13 main_v16
-- ==== Kernel.lean ====
abbrev S8192x128 : Shape := ⟨2, ![8192, 128]⟩
abbrev S4x8192x8192 : Shape := ⟨3, ![4, 8192, 8192]⟩
abbrev S128x128 : Shape := ⟨2, ![128, 128]⟩
abbrev S4x128x128 : Shape := ⟨3, ![4, 128, 128]⟩
abbrev S128 : Shape := ⟨1, ![128]⟩
abbrev S1x128 : Shape := ⟨2, ![1, 128]⟩
abbrev S1x256x8192 : Shape := ⟨3, ![1, 256, 8192]⟩
abbrev S1x128x128 : Shape := ⟨3, ![1, 128, 128]⟩
abbrev S256x128 : Shape := ⟨2, ![256, 128]⟩
abbrev S256x8192 : Shape := ⟨2, ![256, 8192]⟩

abbrev nBuf : Space → Nat
  | .hbm => 10
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S4x8192x8192, .f32⟩
  | .hbm, ⟨2, _⟩ => ⟨S128x128, .f32⟩
  | .hbm, ⟨3, _⟩ => ⟨S4x128x128, .f32⟩
  | .hbm, ⟨4, _⟩ => ⟨S128, .f32⟩
  | .hbm, ⟨5, _⟩ => ⟨S8192x128, .bf16⟩
  | .hbm, ⟨6, _⟩ => ⟨S128x128, .bf16⟩
  | .hbm, ⟨7, _⟩ => ⟨S4x128x128, .bf16⟩
  | .hbm, ⟨8, _⟩ => ⟨S1x128, .f32⟩
  | .hbm, ⟨9, _⟩ => ⟨S8192x128, .f32⟩
  | .local _ .vmem, ⟨0, _⟩ => ⟨S8192x128, .bf16⟩
  | .local _ .vmem, ⟨1, _⟩ => ⟨S128x128, .bf16⟩
  | .local _ .vmem, ⟨2, _⟩ => ⟨S1x256x8192, .f32⟩
  | .local _ .vmem, ⟨3, _⟩ => ⟨S1x256x8192, .f32⟩
  | .local _ .vmem, ⟨4, _⟩ => ⟨S1x128x128, .bf16⟩
  | .local _ .vmem, ⟨5, _⟩ => ⟨S1x128x128, .bf16⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v25 : Index := Scalar.indexCast v1
  let c0_15 : Index := 0#32
  ![v25.toNat, 0]
def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S128_S1x128 : S128.ShapeCasts S1x128
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x128_S128x128_S256x128_1_0_0_1_n_n_wf : DotDims.WF S256x128 S128x128 S256x128 [1] [0] [0] [1] [] []
  dot_S256x8192_S8192x128_S256x128_1_0_0_1_n_n_wf : DotDims.WF S256x8192 S8192x128 S256x128 [1] [0] [0] [1] [] []
  hrank0 : 0 < grid0.rank
  k0_mult1_dvd : ∀ i : grid0.Coords, 256 ∣ (k0_mult1 i).toNat
  k0_off1_inb : ∀ i : grid0.Coords, ∀ (k0_h1 : k0_cond1 i = 1#1), ∀ a, (k0_off1 i) a + S256x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x8192.size a ≤ S4x8192x8192.size a
  hwx0_2 : ∀ i : grid0.Coords, EltTy.bits .f32 = 32 ∨ (Rect.block (s := S4x8192x8192) S1x256x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S4x128x128.size a
  hwx0_3 : ∀ i : grid0.Coords, EltTy.bits .bf16 = 32 ∨ (Rect.block (s := S4x128x128) S1x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .f32 = 32 ∨ (Rect.block (s := S8192x128) S256x128.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_v0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S4x8192x8192 : Shape := ⟨3, ![4, 8192, 8192]⟩
abbrev S128x128 : Shape := ⟨2, ![128, 128]⟩
abbrev S4x128x128 : Shape := ⟨3, ![4, 128, 128]⟩
abbrev S128 : Shape := ⟨1, ![128]⟩
abbrev S4x8192x128 : Shape := ⟨3, ![4, 8192, 128]⟩
abbrev S_ : Shape := ⟨0, ![]⟩
abbrev S1x128 : Shape := ⟨2, ![1, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4x8192x8192, .f32⟩
  | .hbm, ⟨2, _⟩ => ⟨S128x128, .f32⟩
  | .hbm, ⟨3, _⟩ => ⟨S4x128x128, .f32⟩
  | .hbm, ⟨4, _⟩ => ⟨S128, .f32⟩
  | .hbm, ⟨5, _⟩ => ⟨S8192x128, .f32⟩
  | .hbm, ⟨6, _⟩ => ⟨S4x8192x128, .f32⟩
  | .hbm, ⟨7, _⟩ => ⟨S4x8192x128, .f32⟩
  | .hbm, ⟨8, _⟩ => ⟨S_, .f32⟩
  | .hbm, ⟨9, _⟩ => ⟨S4x8192x128, .f32⟩
  | .hbm, ⟨10, _⟩ => ⟨S4x8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S4x8192x128 : S_.BroadcastsInDim S4x8192x128 (![] : Fin 0 → Fin S4x8192x128.rank)
  reducesTo_S4x8192x128_S8192x128_d0 : S4x8192x128.ReducesTo [0] S8192x128
  h_S_ : 0 < S_.numel
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S4x8192x8192_S8192x128_S4x8192x128_2_0_01_1_n_n_wf : DotDims.WF S4x8192x8192 S8192x128 S4x8192x128 [2] [0] [0, 1] [1] [] []
  dot_S4x8192x128_S4x128x128_S4x8192x128_2_1_1_2_0_0_wf : DotDims.WF S4x8192x128 S4x128x128 S4x8192x128 [2] [1] [1] [2] [0] [0]

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4x8192x8192_S8192x128_S4x8192x128_2_0_01_1_n_n : DotDims S4x8192x8192 S8192x128 S4x8192x128 where
  lhsContracting := [2]
  rhsContracting := [0]
  lhsNonContracting := [0, 1]
  rhsNonContracting := [1]
  lhsBatch := []
  rhsBatch := []
  wf := dot_S4x8192x8192_S8192x128_S4x8192x128_2_0_01_1_n_n_wf
def dot_S4x8192x128_S4x128x128_S4x8192x128_2_1_1_2_0_0 : DotDims S4x8192x128 S4x128x128 S4x8192x128 where
  lhsContracting := [2]
  rhsContracting := [1]
  lhsNonContracting := [1]
  rhsNonContracting := [2]
  lhsBatch := [0]
  rhsBatch := [0]
  wf := dot_S4x8192x128_S4x128x128_S4x8192x128_2_1_1_2_0_0_wf

class Facts : Prop extends Facts₀ where

variable [Facts]
-- ==== Proof.Spec.lean ====
/-
  The result both programs compute, index by index, over the extended reals.

  For node features X (8192 × 128), four adjacency channels A_c (8192 × 8192), a weight W (128 × 128), per-channel
  weights Wa_c (128 × 128) and a bias b (128):

      xw n o    = ∑ k, X n k * W k o
      msg c n o = max (∑ f, (∑ k, A c n k * X k f) * Wa c f o) 0
      out n o   = max (xw n o + (msg 0 n o + msg 1 n o + msg 2 n o + msg 3 n o) + b o) 0

  One side walks the channels in order and keeps a running sum, grouped to the left: `acc r` is that sum after channel
  `r`. The other side sums the four messages first, starting from zero, and adds the dense part afterwards. Addition on
  the extended reals is commutative and associative (with the convention -∞ + ∞ = -∞ it is still a commutative monoid),
  so the two groupings agree at every input, infinite entries included; no finiteness is used anywhere.
-/
import Idealize.ShloMosaic.PureOps.Ideal.Laws
import Idealize.ShloMosaic.Lib.ValueIdx

noncomputable section

open scoped BigOperators

namespace Cert.Gcn

/-- The dense part: row `n` of X against column `o` of W. -/
def xw (X : Fin 8192 → Fin 128 → EReal) (W : Fin 128 → Fin 128 → EReal) (n : Fin 8192) (o : Fin 128) : EReal :=
  ∑ k : Fin 128, X n k * W k o

/-- Channel `c`'s message: A_c X, then Wa_c, then the positive part. -/
def msg (X : Fin 8192 → Fin 128 → EReal) (A : Fin 4 → Fin 8192 → Fin 8192 → EReal)
    (Wa : Fin 4 → Fin 128 → Fin 128 → EReal) (c : Fin 4) (n : Fin 8192) (o : Fin 128) : EReal :=
  max (∑ f : Fin 128, (∑ k : Fin 8192, A c n k * X k f) * Wa c f o) 0

/-- The message of channel number `c`, zero past the last channel. -/
def msgN (X : Fin 8192 → Fin 128 → EReal) (A : Fin 4 → Fin 8192 → Fin 8192 → EReal)
    (Wa : Fin 4 → Fin 128 → Fin 128 → EReal) (c : ℕ) (n : Fin 8192) (o : Fin 128) : EReal :=
  if h : c < 4 then msg X A Wa ⟨c, h⟩ n o else 0

theorem msgN_of_lt (X : Fin 8192 → Fin 128 → EReal) (A : Fin 4 → Fin 8192 → Fin 8192 → EReal)
    (Wa : Fin 4 → Fin 128 → Fin 128 → EReal) (c : ℕ) (h : c < 4) (n : Fin 8192) (o : Fin 128) :
    msgN X A Wa c n o = msg X A Wa ⟨c, h⟩ n o := dif_pos h

/-- The running sum after channel `r`: the dense part plus the messages of channels `0 … r`. -/
def acc (X : Fin 8192 → Fin 128 → EReal) (A : Fin 4 → Fin 8192 → Fin 8192 → EReal) (W : Fin 128 → Fin 128 → EReal)
    (Wa : Fin 4 → Fin 128 → Fin 128 → EReal) (r : ℕ) (n : Fin 8192) (o : Fin 128) : EReal :=
  xw X W n o + ∑ c ∈ Finset.range (r + 1), msgN X A Wa c n o

/-- After the first channel: the dense part plus that channel's message. -/
theorem acc_zero (X : Fin 8192 → Fin 128 → EReal) (A : Fin 4 → Fin 8192 → Fin 8192 → EReal) (W : Fin 128 → Fin 128 → EReal)
    (Wa : Fin 4 → Fin 128 → Fin 128 → EReal) (n : Fin 8192) (o : Fin 128) :
    acc X A W Wa 0 n o = xw X W n o + msgN X A Wa 0 n o := by
  unfold acc
  rw [Finset.sum_range_one]

/-- One more channel adds its message on the right. -/
theorem acc_succ (X : Fin 8192 → Fin 128 → EReal) (A : Fin 4 → Fin 8192 → Fin 8192 → EReal) (W : Fin 128 → Fin 128 → EReal)
    (Wa : Fin 4 → Fin 128 → Fin 128 → EReal) (r : ℕ) (n : Fin 8192) (o : Fin 128) :
    acc X A W Wa (r + 1) n o = acc X A W Wa r n o + msgN X A Wa (r + 1) n o := by
  unfold acc
  rw [Finset.sum_range_succ _ (r + 1), add_assoc]

/-- At a first channel (number zero) the running sum is the dense part plus that channel's message. -/
theorem acc_first (X : Fin 8192 → Fin 128 → EReal) (A : Fin 4 → Fin 8192 → Fin 8192 → EReal) (W : Fin 128 → Fin 128 → EReal)
    (Wa : Fin 4 → Fin 128 → Fin 128 → EReal) (r : ℕ) (hr : r = 0) (ch : Fin 4) (hch : ch.val = r) (n : Fin 8192) (o : Fin 128) :
    acc X A W Wa r n o = xw X W n o + msg X A Wa ch n o := by
  subst hr
  rw [acc_zero, msgN_of_lt X A Wa 0 (by decide)]
  exact congrArg (fun d => xw X W n o + msg X A Wa d n o) (Fin.ext hch.symm)

/-- At a later channel the running sum is the one before plus that channel's message. -/
theorem acc_step (X : Fin 8192 → Fin 128 → EReal) (A : Fin 4 → Fin 8192 → Fin 8192 → EReal) (W : Fin 128 → Fin 128 → EReal)
    (Wa : Fin 4 → Fin 128 → Fin 128 → EReal) (r r' : ℕ) (hr : r' = r + 1) (ch : Fin 4) (hch : ch.val = r') (n : Fin 8192) (o : Fin 128) :
    acc X A W Wa r' n o = acc X A W Wa r n o + msg X A Wa ch n o := by
  subst hr
  rw [acc_succ, msgN_of_lt X A Wa (r + 1) (hch ▸ ch.isLt)]
  exact congrArg (fun d => acc X A W Wa r n o + msg X A Wa d n o) (Fin.ext hch.symm)

/-- The result: the running sum after the last channel, plus the bias, then the positive part. -/
def out (X : Fin 8192 → Fin 128 → EReal) (A : Fin 4 → Fin 8192 → Fin 8192 → EReal) (W : Fin 128 → Fin 128 → EReal)
    (Wa : Fin 4 → Fin 128 → Fin 128 → EReal) (b : Fin 128 → EReal) (n : Fin 8192) (o : Fin 128) : EReal :=
  max (acc X A W Wa 3 n o + b o) 0

/-- Summing the four messages first, from zero, and adding the dense part afterwards gives the same result. -/
theorem out_eq_sum_first (X : Fin 8192 → Fin 128 → EReal) (A : Fin 4 → Fin 8192 → Fin 8192 → EReal)
    (W : Fin 128 → Fin 128 → EReal) (Wa : Fin 4 → Fin 128 → Fin 128 → EReal) (b : Fin 128 → EReal) (n : Fin 8192) (o : Fin 128) :
    max (xw X W n o + (0 + ∑ c : Fin 4, msg X A Wa c n o) + b o) 0 = out X A W Wa b n o := by
  unfold out acc
  rw [zero_add, ← Fin.sum_univ_eq_sum_range (fun c => msgN X A Wa c n o) 4]
  refine congrArg (fun s => max (xw X W n o + s + b o) 0) (Finset.sum_congr rfl fun c _ => ?_)
  exact (msgN_of_lt X A Wa c.val c.isLt n o).symm

open Idealize.ShloMosaic Idealize.ShloMosaic.ValueIdx in
/-- The result as one function of the five argument arrays, entry by entry. -/
def result (x0 : (⟨2, ![8192, 128]⟩ : Shape).Idx → EReal) (x1 : (⟨3, ![4, 8192, 8192]⟩ : Shape).Idx → EReal)
    (x2 : (⟨2, ![128, 128]⟩ : Shape).Idx → EReal) (x3 : (⟨3, ![4, 128, 128]⟩ : Shape).Idx → EReal)
    (x4 : (⟨1, ![128]⟩ : Shape).Idx → EReal) : (⟨2, ![8192, 128]⟩ : Shape).Idx → EReal :=
  fun i => out (fun n k => x0 (ix2 n k)) (fun c n k => x1 (ix3 c n k)) (fun k o => x2 (ix2 k o))
    (fun c f o => x3 (ix3 c f o)) (fun o => x4 (ix1 o)) (i 0) (i 1)

end Cert.Gcn

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KernelPay.lean ====
/-
  The three values the kernel body stores, read at an entry, at the ideal values.

  * the dense part of a row tile: a [256,128] slab of X against W, entry (p, q) is ∑ k, x p k * w k q;
  * the accumulate step: what the running sum held at (p, q), plus the positive part of
    ∑ f, (∑ k, a p k * x k f) * wa f q — the adjacency tile against all of X, then against the channel's weight;
    the narrowing of the tile and of the first product to the 16-bit float format is the identity on ideal values;
  * the final value: the positive part of the running sum at (p, q) plus the bias at q.
-/
import proofs.«155809_j77206332113740_1_alg».proof.Proof.Gen.KernelIdeal.Skeleton
import proofs.«155809_j77206332113740_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A [1,a,b] block with its leading unit axis cast away, read at (p, q), is the block at (0, p, q). -/
theorem dropUnit_at {a b : ℕ} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) :=
  (shapeCast_dropUnit_apply ![a, b] v h (ix2 p q)).trans (congrArg v (funext fun d => match d with
    | ⟨0, _⟩ => rfl
    | ⟨1, _⟩ => rfl
    | ⟨2, _⟩ => rfl))

/-- The dense part of a row tile at (p, q). -/
theorem pay1_at (v26 : Vec Ideal S256x128 .bf16) (v28 : Vec Ideal S128x128 .bf16) (p : Fin 256) (q : Fin 128) :
    k0_pay1 (F := Ideal) v26 v28 (ix2 p q) = ∑ k : Fin 128, v26 (ix2 p k) * v28 (ix2 k q) := by
  unfold k0_pay1
  simp only [matmul, shapeCast_self]
  exact Cert.LibMatmulAt.matmul_zero_at dot_S256x128_S128x128_S256x128_1_0_0_1_n_n rfl rfl rfl rfl rfl rfl none v26 v28 p q

/-- The accumulate step at (p, q). -/
theorem pay2_at (v5 : Vec Ideal S1x256x8192 .f32) (v8 : Vec Ideal S8192x128 .bf16) (v12 : Vec Ideal S1x128x128 .bf16)
    (v17 : Vec Ideal S256x128 .f32) (p : Fin 256) (q : Fin 128) :
    k0_pay2 (F := Ideal) v5 v8 v12 v17 (ix2 p q)
      = v17 (ix2 p q) + max (∑ f : Fin 128, (∑ k : Fin 8192, v5 (ix3 0 p k) * v8 (ix2 k f)) * v12 (ix3 0 f q)) 0 := by
  unfold k0_pay2
  simp only [matmul, shapeCast_self]
  rw [addf_apply, maximumf_apply, broadcast_apply]
  rw [Cert.LibMatmulAt.matmul_zero_at dot_S256x128_S128x128_S256x128_1_0_0_1_n_n rfl rfl rfl rfl rfl rfl]
  refine congrArg₂ (fun s z => v17 (ix2 p q) + max s z) (Finset.sum_congr rfl fun f _ => ?_) Ideal.ofBits_zero_f32
  rw [truncf_apply, Cert.LibMatmulAt.matmul_zero_at dot_S256x8192_S8192x128_S256x128_1_0_0_1_n_n rfl rfl rfl rfl rfl rfl,
    dropUnit_at]
  refine congrArg (· * v12 (ix3 0 f q)) (Finset.sum_congr rfl fun k _ => ?_)
  rw [truncf_apply, dropUnit_at]

/-- The final value at (p, q). -/
theorem pay3_at (v25 : Vec Ideal S1x128 .f32) (v29 : Vec Ideal S256x128 .f32) (p : Fin 256) (q : Fin 128) :
    k0_pay3 (F := Ideal) v25 v29 (ix2 p q) = max (v29 (ix2 p q) + v25 (ix2 0 q)) 0 := by
  unfold k0_pay3
  simp only [shapeCast_self]
  rw [maximumf_apply, addf_apply, broadcast_apply,
    broadcastTo_apply v25 broadcasts_S1x128_S256x128 (ix2 p q) (ix2 0 q) (fun a => match a with
      | ⟨0, _⟩ => by show 0 = if (1 : Nat) = 1 then 0 else _; rw [if_pos rfl]
      | ⟨1, _⟩ => by show q.val = if (128 : Nat) = 1 then 0 else q.val; rw [if_neg (by decide)])]
  show max _ (Ideal.ofBits .f32 0x00000000#32) = _
  rw [Ideal.ofBits_zero_f32]

end Cert.KernelIdeal.Pay

end
-- ==== Proof.KernelPieces.lean ====
/-
  What each control case of the kernel body leaves behind, as the body's stored values.

  The body keeps a running sum in a scratch tile that survives from one grid point to the next. At a point it
    * (first channel only) resets the running sum to the dense part of the row tile: a [256,128] slab of X, the rows
      of this tile, against W;
    * adds this channel's message to the running sum;
    * (last channel only) stores the positive part of the running sum plus the bias into the output tile.
  So after a point the scratch holds the accumulate step applied to what it held before — to the fresh dense part
  at a first channel — and at a last channel the output tile holds the final value of that new running sum.
-/
import proofs.«155809_j77206332113740_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of X that belong to the row tile of grid point `i`: 256 rows starting at the tile's first row. -/
def slab (i : grid0.Coords) (hc0 : cond0_0 i) (x0 : Vec F S8192x128 .bf16) : Vec F S256x128 .bf16 :=
  View.ld x0 (Rect.unit (s := S8192x128) (k0_off1 i) S256x128.size (k0_off1_inb i hc0))

/-- A middle channel: the running sum `xs0` gets this channel's message added. -/
theorem sout_B (c : Dev nD) (i : grid0.Coords) (a2 : Memref sig .tc .vmem S8192x128 .bf16) (h2 : a2.IsWhole) (a3 : Memref sig .tc .vmem S128x128 .bf16) (h3 : a3.IsWhole) (a4 : Memref sig .tc .vmem S1x256x8192 .f32) (h4 : a4.IsWhole) (a5 : Memref sig .tc .vmem S1x128x128 .bf16) (h5 : a5.IsWhole) (a6 : Memref sig .tc .vmem S1x128 .f32) (h6 : a6.IsWhole) (a7 : Memref sig .tc .vmem S256x128 .f32) (h7 : a7.IsWhole) (a8 : Memref sig .tc .vmem S256x128 .f32) (h8 : a8.IsWhole) (hc0 : ¬cond0_0 i) (hc1 : ¬cond0_1 i) (x0 : Vec F S8192x128 .bf16) (x1 : Vec F S128x128 .bf16) (x2 : Vec F S1x256x8192 .f32) (x3 : Vec F S1x128x128 .bf16) (x4 : Vec F S1x128 .f32) (xs0 : Vec F S256x128 .f32) :
    sout0_B_0 c i a2 h2 a3 h3 a4 h4 a5 h5 a6 h6 a7 h7 a8 h8 hc0 hc1 x0 x1 x2 x3 x4 xs0 = k0_pay2 x2 x0 x3 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero hz2]
  simp only [View.readAt_eq_ld, h2.read_unread, h4.read_unread, h5.read_unread, h8.read_unread,
    View.ld_unit_zero (S := S8192x128) hz2, View.ld_unit_zero (S := S256x128) hz2,
    View.ld_unit_zero (S := S1x256x8192) hz3, View.ld_unit_zero (S := S1x128x128) hz3]

/-- The last channel leaves the same in the scratch: the running sum with this channel's message added. -/
theorem sout_C (c : Dev nD) (i : grid0.Coords) (a2 : Memref sig .tc .vmem S8192x128 .bf16) (h2 : a2.IsWhole) (a3 : Memref sig .tc .vmem S128x128 .bf16) (h3 : a3.IsWhole) (a4 : Memref sig .tc .vmem S1x256x8192 .f32) (h4 : a4.IsWhole) (a5 : Memref sig .tc .vmem S1x128x128 .bf16) (h5 : a5.IsWhole) (a6 : Memref sig .tc .vmem S1x128 .f32) (h6 : a6.IsWhole) (a7 : Memref sig .tc .vmem S256x128 .f32) (h7 : a7.IsWhole) (a8 : Memref sig .tc .vmem S256x128 .f32) (h8 : a8.IsWhole) (hc0 : ¬cond0_0 i) (hc1 : cond0_1 i) (x0 : Vec F S8192x128 .bf16) (x1 : Vec F S128x128 .bf16) (x2 : Vec F S1x256x8192 .f32) (x3 : Vec F S1x128x128 .bf16) (x4 : Vec F S1x128 .f32) (xs0 : Vec F S256x128 .f32) :
    sout0_C_0 c i a2 h2 a3 h3 a4 h4 a5 h5 a6 h6 a7 h7 a8 h8 hc0 hc1 x0 x1 x2 x3 x4 xs0 = k0_pay2 x2 x0 x3 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h4.read_unread, h5.read_unread, h8.read_unread,
    View.ld_unit_zero (S := S8192x128) hz2, View.ld_unit_zero (S := S256x128) hz2,
    View.ld_unit_zero (S := S1x256x8192) hz3, View.ld_unit_zero (S := S1x128x128) hz3]

/-- The last channel's output tile: the final value of the running sum it has just updated. -/
theorem out_C (c : Dev nD) (i : grid0.Coords) (a2 : Memref sig .tc .vmem S8192x128 .bf16) (h2 : a2.IsWhole) (a3 : Memref sig .tc .vmem S128x128 .bf16) (h3 : a3.IsWhole) (a4 : Memref sig .tc .vmem S1x256x8192 .f32) (h4 : a4.IsWhole) (a5 : Memref sig .tc .vmem S1x128x128 .bf16) (h5 : a5.IsWhole) (a6 : Memref sig .tc .vmem S1x128 .f32) (h6 : a6.IsWhole) (a7 : Memref sig .tc .vmem S256x128 .f32) (h7 : a7.IsWhole) (a8 : Memref sig .tc .vmem S256x128 .f32) (h8 : a8.IsWhole) (hc0 : ¬cond0_0 i) (hc1 : cond0_1 i) (x0 : Vec F S8192x128 .bf16) (x1 : Vec F S128x128 .bf16) (x2 : Vec F S1x256x8192 .f32) (x3 : Vec F S1x128x128 .bf16) (x4 : Vec F S1x128 .f32) (xs0 : Vec F S256x128 .f32) :
    out0_C_5 c i a2 h2 a3 h3 a4 h4 a5 h5 a6 h6 a7 h7 a8 h8 hc0 hc1 x0 x1 x2 x3 x4 xs0 = k0_pay3 x4 (k0_pay2 x2 x0 x3 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz2, View.readCov_unit_zero (S := S256x128) _ hz2]
  simp only [View.readAt_eq_ld, h2.read_unread, h4.read_unread, h5.read_unread, h6.read_unread, h8.read_unread,
    View.ld_unit_zero (S := S8192x128) hz2, View.ld_unit_zero (S := S256x128) hz2, View.ld_unit_zero (S := S1x128) hz2,
    View.ld_unit_zero (S := S1x256x8192) hz3, View.ld_unit_zero (S := S1x128x128) hz3]

/-- The first channel: the running sum is reset to the dense part of the row tile, then gets this channel's message. -/
theorem sout_A (c : Dev nD) (i : grid0.Coords) (a2 : Memref sig .tc .vmem S8192x128 .bf16) (h2 : a2.IsWhole) (a3 : Memref sig .tc .vmem S128x128 .bf16) (h3 : a3.IsWhole) (a4 : Memref sig .tc .vmem S1x256x8192 .f32) (h4 : a4.IsWhole) (a5 : Memref sig .tc .vmem S1x128x128 .bf16) (h5 : a5.IsWhole) (a6 : Memref sig .tc .vmem S1x128 .f32) (h6 : a6.IsWhole) (a7 : Memref sig .tc .vmem S256x128 .f32) (h7 : a7.IsWhole) (a8 : Memref sig .tc .vmem S256x128 .f32) (h8 : a8.IsWhole) (hc0 : cond0_0 i) (hc1 : ¬cond0_1 i) (x0 : Vec F S8192x128 .bf16) (x1 : Vec F S128x128 .bf16) (x2 : Vec F S1x256x8192 .f32) (x3 : Vec F S1x128x128 .bf16) (x4 : Vec F S1x128 .f32) :
    sout0_A_0 c i a2 h2 a3 h3 a4 h4 a5 h5 a6 h6 a7 h7 a8 h8 hc0 hc1 x0 x1 x2 x3 x4 = k0_pay2 x2 x0 x3 (k0_pay1 (slab i hc0 x0) x1) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S256x128) hz2, View.readCov_unit_zero (S := S256x128) _ hz2]
  simp only [View.readAt_eq_ld, h2.read_unread, h3.read_unread, h4.read_unread, h5.read_unread,
    View.ld_unit_zero (S := S8192x128) hz2, View.ld_unit_zero (S := S128x128) hz2,
    View.ld_unit_zero (S := S1x256x8192) hz3, View.ld_unit_zero (S := S1x128x128) hz3]
  rfl

end Cert.KernelIdeal.Pieces

end
-- ==== Proof.KernelBlocks.lean ====
/-
  The input tiles a grid point sees, read back as entries of the argument arrays, at the ideal values.

  The grid has 32 row tiles by 4 channels, walked channel-fastest: point `t` is row tile `t / 4`, channel `t % 4`.
  At point `t` the body sees all of X and all of W (narrowed to a 16-bit float format by the surrounding program, which
  is the identity on ideal values), rows `256·(t/4) … 256·(t/4)+255` of channel `t % 4` of the adjacency, channel
  `t % 4` of the per-channel weights, and the bias as a one-row matrix.
-/
import proofs.«155809_j77206332113740_1_alg».proof.Proof.Gen.KernelIdeal.Frame
import proofs.«155809_j77206332113740_1_alg».proof.Proof.KernelPieces
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The grid has 128 points. -/
theorem lt128 (t : Fin cfg0.N) : t.val < 128 := lt_of_lt_of_eq t.isLt (show cfg0.N = 128 from N_0)

/-- The channel of grid point `t`. -/
def chan (t : Fin cfg0.N) : Fin 4 := ⟨t.val % 4, Nat.mod_lt _ (by decide)⟩

/-- Row `p` of the row tile of grid point `t`, as a row of the whole arrays. -/
def row (t : Fin cfg0.N) (p : Fin 256) : Fin 8192 :=
  ⟨256 * (t.val / 4) + p.val, by have := lt128 t; have := p.isLt; omega⟩

/-! ## The index maps, decided once over the grid -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val % 4 ∧ win0_2.index t (1 : Fin 3) = t.val / 4
    ∧ win0_2.index t (2 : Fin 3) = 0 :=
  (by decide +kernel : ∀ t : Fin grid0.N, _)
theorem idx3 : ∀ t : Fin cfg0.N, win0_3.index t (0 : Fin 3) = t.val % 4 ∧ win0_3.index t (1 : Fin 3) = 0
    ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)
/-- The row-tile coordinate of point `t`. -/
theorem coord0 : ∀ t : Fin cfg0.N, ((grid0.coords t) 0).val = t.val / 4 :=
  (by decide +kernel : ∀ t : Fin grid0.N, _)

/-! ## The arrays the surrounding program prepares -/

theorem V_v0 (c : Dev nD) : @Eq (FVec Ideal S8192x128 .bf16) (V m c main_v0)
    (truncf .bf16 (m ((c : Thread nD τ).loc main_arg0) : FVec Ideal S8192x128 .f32) bitsLt_bf16_f32) := by
  dsimp only [Gen.V, Gen.hostOps0]; after_results

theorem V_v1 (c : Dev nD) : @Eq (FVec Ideal S128x128 .bf16) (V m c main_v1)
    (truncf .bf16 (m ((c : Thread nD τ).loc main_arg2) : FVec Ideal S128x128 .f32) bitsLt_bf16_f32) := by
  dsimp only [Gen.V, Gen.hostOps0]; after_results

theorem V_v2 (c : Dev nD) : @Eq (FVec Ideal S4x128x128 .bf16) (V m c main_v2)
    (truncf .bf16 (m ((c : Thread nD τ).loc main_arg3) : FVec Ideal S4x128x128 .f32) bitsLt_bf16_f32) := by
  dsimp only [Gen.V, Gen.hostOps0]; after_results

theorem V_v3 (c : Dev nD) : @Eq (FVec Ideal S1x128 .f32) (V m c main_v3)
    (shapeCast S1x128 (m ((c : Thread nD τ).loc main_arg4) : FVec Ideal S128 .f32) shapeCasts_S128_S1x128) := by
  dsimp only [Gen.V, Gen.hostOps0]; after_results; rfl

/-! ## The tiles at a point -/

/-- All of X. -/
theorem blk0_at (c : Dev nD) (t : Fin cfg0.N) (n : Fin 8192) (k : Fin 128) :
    (iblk m c 0 t : Vec Ideal S8192x128 .bf16) (ix2 n k) = m ((c : Thread nD τ).loc main_arg0) (ix2 n k) := by
  obtain ⟨e0, e1⟩ := idx0 t
  show V m c main_v0 (((cfg0.win 0).blk t).view.emb (ix2 n k)) = _
  rw [V_v0, truncf_apply]
  refine congrArg _ (funext fun a => Fin.ext ?_)
  match a with
  | ⟨0, _⟩ => show win0_0.index t (0 : Fin 2) * 8192 + 1 * n.val = n.val; omega
  | ⟨1, _⟩ => show win0_0.index t (1 : Fin 2) * 128 + 1 * k.val = k.val; omega

/-- All of W. -/
theorem blk1_at (c : Dev nD) (t : Fin cfg0.N) (k : Fin 128) (o : Fin 128) :
    (iblk m c 1 t : Vec Ideal S128x128 .bf16) (ix2 k o) = m ((c : Thread nD τ).loc main_arg2) (ix2 k o) := by
  obtain ⟨e0, e1⟩ := idx1 t
  show V m c main_v1 (((cfg0.win 1).blk t).view.emb (ix2 k o)) = _
  rw [V_v1, truncf_apply]
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * o.val = o.val; omega

/-- The adjacency tile: this point's channel, this point's rows. -/
theorem blk2_at (c : Dev nD) (t : Fin cfg0.N) (p : Fin 256) (k : Fin 8192) :
    (iblk m c 2 t : Vec Ideal S1x256x8192 .f32) (ix3 0 p k)
      = m ((c : Thread nD τ).loc main_arg1) (ix3 (chan t) (row t p) k) := by
  obtain ⟨e0, e1, e2⟩ := idx2 t
  show V m c main_arg1 (((cfg0.win 2).blk t).view.emb (ix3 0 p k)) = _
  rw [V_main_arg1]
  refine congrArg _ (funext fun a => Fin.ext ?_)
  match a with
  | ⟨0, _⟩ => show win0_2.index t (0 : Fin 3) * 1 + 1 * 0 = t.val % 4; omega
  | ⟨1, _⟩ => show win0_2.index t (1 : Fin 3) * 256 + 1 * p.val = 256 * (t.val / 4) + p.val; omega
  | ⟨2, _⟩ => show win0_2.index t (2 : Fin 3) * 8192 + 1 * k.val = k.val; omega

/-- This point's channel of the per-channel weights. -/
theorem blk3_at (c : Dev nD) (t : Fin cfg0.N) (f : Fin 128) (o : Fin 128) :
    (iblk m c 3 t : Vec Ideal S1x128x128 .bf16) (ix3 0 f o)
      = m ((c : Thread nD τ).loc main_arg3) (ix3 (chan t) f o) := by
  obtain ⟨e0, e1, e2⟩ := idx3 t
  show V m c main_v2 (((cfg0.win 3).blk t).view.emb (ix3 0 f o)) = _
  rw [V_v2, truncf_apply]
  refine congrArg _ (funext fun a => Fin.ext ?_)
  match a with
  | ⟨0, _⟩ => show win0_3.index t (0 : Fin 3) * 1 + 1 * 0 = t.val % 4; omega
  | ⟨1, _⟩ => show win0_3.index t (1 : Fin 3) * 128 + 1 * f.val = f.val; omega
  | ⟨2, _⟩ => show win0_3.index t (2 : Fin 3) * 128 + 1 * o.val = o.val; omega

/-- The bias, as a one-row matrix. -/
theorem blk4_at (c : Dev nD) (t : Fin cfg0.N) (o : Fin 128) :
    (iblk m c 4 t : Vec Ideal S1x128 .f32) (ix2 0 o) = m ((c : Thread nD τ).loc main_arg4) (ix1 o) := by
  obtain ⟨e0, e1⟩ := idx4 t
  show V m c main_v3 (((cfg0.win 4).blk t).view.emb (ix2 0 o)) = _
  rw [V_v3, shapeCast_addUnit_apply]
  refine congrArg _ (funext fun a => Fin.ext ?_)
  match a with
  | ⟨0, _⟩ => show win0_4.index t (1 : Fin 2) * 128 + 1 * o.val = o.val; omega

/-- The rows of X the reset reads at a first-channel point: the rows of this point's row tile. -/
theorem slab_at (c : Dev nD) (t : Fin cfg0.N) (hc0 : cond0_0 (grid0.coords t)) (p : Fin 256) (k : Fin 128) :
    Pieces.slab (grid0.coords t) hc0 (iblk m c 0 t : Vec Ideal S8192x128 .bf16) (ix2 p k)
      = m ((c : Thread nD τ).loc main_arg0) (ix2 (row t p) k) := by
  obtain ⟨e0, e1⟩ := idx0 t
  have hc := coord0 t
  have ho := k0_off1_eq (grid0.coords t)
  unfold Pieces.slab
  show V m c main_v0 (((cfg0.win 0).blk t).view.emb ((Rect.unit (s := S8192x128) (k0_off1 (grid0.coords t)) S256x128.size (k0_off1_inb (grid0.coords t) hc0)).emb (ix2 p k))) = _
  rw [V_v0, truncf_apply]
  refine congrArg _ (funext fun a => Fin.ext ?_)
  match a with
  | ⟨0, _⟩ => show win0_0.index t (0 : Fin 2) * 8192 + 1 * (k0_off1 (grid0.coords t) 0 + 1 * p.val) = 256 * (t.val / 4) + p.val
              rw [ho]; show win0_0.index t (0 : Fin 2) * 8192 + 1 * (256 * ((grid0.coords t) 0).val + 1 * p.val) = _; omega
  | ⟨1, _⟩ => show win0_0.index t (1 : Fin 2) * 128 + 1 * (k0_off1 (grid0.coords t) 1 + 1 * k.val) = k.val
              rw [ho]; show win0_0.index t (1 : Fin 2) * 128 + 1 * (0 + 1 * k.val) = _; omega

end Cert.KernelIdeal.Blocks

end
-- ==== Proof.KernelAcc.lean ====
/-
  The kernel's result array, at the ideal values, is the specified result.

  The scratch tile carries the running sum from one grid point to the next. By induction over the grid points: after
  point `t` (row tile `t / 4`, channel `t % 4`) the scratch holds, at (p, q), the running sum after channel `t % 4` at
  row `256·(t/4) + p`, column `q`. A first-channel point starts it from the dense part; every other point adds its
  channel's message to what the point before left, and the point before is in the same row tile. At a last-channel
  point the output tile gets the positive part of that running sum plus the bias, which is the result at the tile's
  entries; these 32 tiles are written back and together cover the result array.
-/
import proofs.«155809_j77206332113740_1_alg».proof.Proof.Gen.KernelIdeal.Value
import proofs.«155809_j77206332113740_1_alg».proof.Proof.Spec
import proofs.«155809_j77206332113740_1_alg».proof.Proof.KernelPay
import proofs.«155809_j77206332113740_1_alg».proof.Proof.KernelPieces
import proofs.«155809_j77206332113740_1_alg».proof.Proof.KernelBlocks
import Idealize.ShloMosaic.Lib.Pipeline.Value
import Idealize.ShloMosaic.Lib.ValueIdx

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks

variable (m : (ℓ : Loc nD τ sig) → Buf (Elt Ideal) ℓ) (ρ : Dev nD → PrngReg)

/-! ## The argument arrays on a core, as the specification's functions -/

abbrev aX (c : Dev nD) : Fin 8192 → Fin 128 → EReal := fun n k => m ((c : Thread nD τ).loc main_arg0) (ix2 n k)
abbrev aA (c : Dev nD) : Fin 4 → Fin 8192 → Fin 8192 → EReal := fun ch n k => m ((c : Thread nD τ).loc main_arg1) (ix3 ch n k)
abbrev aW (c : Dev nD) : Fin 128 → Fin 128 → EReal := fun k o => m ((c : Thread nD τ).loc main_arg2) (ix2 k o)
abbrev aWa (c : Dev nD) : Fin 4 → Fin 128 → Fin 128 → EReal := fun ch f o => m ((c : Thread nD τ).loc main_arg3) (ix3 ch f o)
abbrev ab (c : Dev nD) : Fin 128 → EReal := fun o => m ((c : Thread nD τ).loc main_arg4) (ix1 o)

/-- The accumulate step at point `t`: what the scratch held, plus this point's channel's message at this point's row. -/
theorem step_at (c : Dev nD) (t : Fin cfg0.N) (xs : Vec Ideal S256x128 .f32) (p : Fin 256) (q : Fin 128) :
    k0_pay2 (F := Ideal) (iblk m c 2 t) (iblk m c 0 t) (iblk m c 3 t) xs (ix2 p q)
      = xs (ix2 p q) + Gcn.msg (aX m c) (aA m c) (aWa m c) (chan t) (row t p) q := by
  refine (Pay.pay2_at (iblk m c 2 t) (iblk m c 0 t) (iblk m c 3 t) xs p q).trans ?_
  unfold Gcn.msg
  refine congrArg (fun s => xs (ix2 p q) + max s 0) (Finset.sum_congr rfl fun f _ => ?_)
  exact congrArg₂ (· * ·) (Finset.sum_congr rfl fun k _ => congrArg₂ (· * ·) (blk2_at m c t p k) (blk0_at m c t k f))
    (blk3_at m c t f q)

/-- The reset at a first-channel point: the dense part at this point's row. -/
theorem reset_at (c : Dev nD) (t : Fin cfg0.N) (hc0 : cond0_0 (grid0.coords t)) (p : Fin 256) (q : Fin 128) :
    k0_pay1 (F := Ideal) (Pieces.slab (grid0.coords t) hc0 (iblk m c 0 t)) (iblk m c 1 t) (ix2 p q)
      = Gcn.xw (aX m c) (aW m c) (row t p) q := by
  refine (Pay.pay1_at (Pieces.slab (grid0.coords t) hc0 (iblk m c 0 t)) (iblk m c 1 t) p q).trans ?_
  unfold Gcn.xw
  exact Finset.sum_congr rfl fun k _ => congrArg₂ (· * ·) (slab_at m c t hc0 p k) (blk1_at m c t k q)

/-- Two consecutive points with the later one not a first channel are in the same row tile. -/
theorem row_pred (n : ℕ) (h : n + 1 < cfg0.N) (h0 : ¬(n + 1) % 4 = 0) (p : Fin 256) :
    row ⟨n, Nat.lt_of_succ_lt h⟩ p = row ⟨n + 1, h⟩ p := by
  apply Fin.ext
  show 256 * (n / 4) + p.val = 256 * ((n + 1) / 4) + p.val
  omega

/-- THE RUNNING SUM. After point `n` the scratch holds the running sum after channel `n % 4` at the rows of tile `n / 4`. -/
theorem scratch_at (c : Dev nD) : ∀ (n : ℕ) (h : n < cfg0.N) (p : Fin 256) (q : Fin 128),
    (outsAt0 m c n h).2 (ix2 p q)
      = Gcn.acc (aX m c) (aA m c) (aW m c) (aWa m c) (n % 4) (row ⟨n, h⟩ p) q
  | 0, h, p, q => by
    have h0 : (⟨0, h⟩ : Fin cfg0.N).val % 4 = 0 := rfl
    have h1 : ¬(⟨0, h⟩ : Fin cfg0.N).val % 4 = 3 := by show ¬(0 : ℕ) % 4 = 3; decide
    rw [outsAt0_A m c ⟨0, h⟩ h0 h1]
    dsimp only
    refine (congrFun (Pieces.sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr h0) (fun hh => h1 ((hcond0_1 ⟨0, h⟩).mp hh)) (iblk m c 0 ⟨0, h⟩) (iblk m c 1 ⟨0, h⟩) (iblk m c 2 ⟨0, h⟩) (iblk m c 3 ⟨0, h⟩) (iblk m c 4 ⟨0, h⟩)) (ix2 p q)).trans ?_
    refine (step_at m c ⟨0, h⟩ _ p q).trans ?_
    rw [reset_at m c ⟨0, h⟩ ((hcond0_0 ⟨0, h⟩).mpr h0) p q]
    exact (Gcn.acc_first _ _ _ _ (0 % 4) rfl (chan ⟨0, h⟩) rfl _ _).symm
  | n + 1, h, p, q => by
    have hN : n + 1 < 128 := lt_of_lt_of_eq h (show cfg0.N = 128 from N_0)
    by_cases h0 : (n + 1) % 4 = 0
    · have h1 : ¬(n + 1) % 4 = 3 := by omega
      rw [outsAt0_A m c ⟨n + 1, h⟩ h0 h1]
      dsimp only
      refine (congrFun (Pieces.sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)) (ix2 p q)).trans ?_
      refine (step_at m c ⟨n + 1, h⟩ _ p q).trans ?_
      rw [reset_at m c ⟨n + 1, h⟩ ((hcond0_0 ⟨n + 1, h⟩).mpr h0) p q]
      exact (Gcn.acc_first _ _ _ _ ((n + 1) % 4) h0 (chan ⟨n + 1, h⟩) rfl _ _).symm
    · have ih := scratch_at c n (Nat.lt_of_succ_lt h) p q
      rw [row_pred n h h0 p] at ih
      have hstep : (n + 1) % 4 = n % 4 + 1 := by omega
      by_cases h1 : (n + 1) % 4 = 3
      · rw [outsAt0_C m c ⟨n + 1, h⟩ h0 h1]
        dsimp only
        refine (congrFun (Pieces.sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c ((⟨n + 1, h⟩ : Fin cfg0.N).val - 1) (Nat.lt_of_le_of_lt (Nat.sub_le _ _) (⟨n + 1, h⟩ : Fin cfg0.N).isLt)).2) (ix2 p q)).trans ?_
        refine (step_at m c ⟨n + 1, h⟩ _ p q).trans ?_
        show (outsAt0 m c n _).2 (ix2 p q) + _ = _
        rw [ih]
        exact (Gcn.acc_step _ _ _ _ (n % 4) ((n + 1) % 4) hstep (chan ⟨n + 1, h⟩) rfl _ _).symm
      · rw [outsAt0_B m c ⟨n + 1, h⟩ h0 h1]
        dsimp only
        refine (congrFun (Pieces.sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c ((⟨n + 1, h⟩ : Fin cfg0.N).val - 1) (Nat.lt_of_le_of_lt (Nat.sub_le _ _) (⟨n + 1, h⟩ : Fin cfg0.N).isLt)).2) (ix2 p q)).trans ?_
        refine (step_at m c ⟨n + 1, h⟩ _ p q).trans ?_
        show (outsAt0 m c n _).2 (ix2 p q) + _ = _
        rw [ih]
        exact (Gcn.acc_step _ _ _ _ (n % 4) ((n + 1) % 4) hstep (chan ⟨n + 1, h⟩) rfl _ _).symm

/-- At a last-channel point the output tile holds the result at the tile's entries. -/
theorem out_at (c : Dev nD) (t : Fin cfg0.N) (h0 : ¬t.val % 4 = 0) (h1 : t.val % 4 = 3) (p : Fin 256) (q : Fin 128) :
    (outsAt0 m c t.val t.isLt).1 (ix2 p q)
      = Gcn.out (aX m c) (aA m c) (aW m c) (aWa m c) (ab m c) (row t p) q := by
  have hs := scratch_at m c t.val t.isLt p q
  rw [outsAt0_C m c t h0 h1] at hs ⊢
  dsimp only at hs ⊢
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)).trans ?_
  refine (Pay.pay3_at _ _ p q).trans ?_
  unfold Gcn.out
  refine congrArg₂ (fun s z => max (s + z) 0) ?_ (blk4_at m c t q)
  refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p q)).symm.trans (hs.trans ?_)
  rw [h1]

/-- The specified result on core `c`, as contents of the result array. -/
abbrev G (c : Dev nD) : Buf (Elt Ideal) ((c : Thread nD τ).loc main_v4) :=
  Gcn.result (m ((c : Thread nD τ).loc main_arg0)) (m ((c : Thread nD τ).loc main_arg1)) (m ((c : Thread nD τ).loc main_arg2))
    (m ((c : Thread nD τ).loc main_arg3)) (m ((c : Thread nD τ).loc main_arg4))

/-- What a last-channel point writes back is its tile of the specified result. -/
theorem flushed_eq (c : Dev nD) (t : Fin cfg0.N) (hf : (cfg0.win 5).flush t = true) :
    (dats m 0 c).flushed 5 t = ((cfg0.win 5).blk t).view.read (Elt Ideal) (G m c) := by
  have h1 : t.val % 4 = 3 := (flush0_5 t).mp hf
  have h0 : ¬t.val % 4 = 0 := by omega
  obtain ⟨e0, e1⟩ := idx5 t
  rw [Value.flushed5]
  funext j
  obtain ⟨p, q, rfl⟩ : ∃ (p : Fin 256) (q : Fin 128), j = ix2 p q := ⟨j 0, j 1, eq_ix2 j⟩
  show (outsAt0 m c t.val t.isLt).1 (ix2 p q) = G m c (((cfg0.win 5).blk t).view.emb (ix2 p q))
  rw [out_at m c t h0 h1 p q]
  exact congrArg₂ (Gcn.out (aX m c) (aA m c) (aW m c) (aWa m c) (ab m c))
    (Fin.ext (by show 256 * (t.val / 4) + p.val = win0_5.index t (0 : Fin 2) * 256 + 1 * p.val; omega))
    (Fin.ext (by show q.val = win0_5.index t (1 : Fin 2) * 128 + 1 * q.val; omega))

/-- Every entry of the result array lies in the tile of some last-channel point: row `r` in the tile of point `4·(r/256) + 3`. -/
theorem cover (c : Dev nD) (i : S8192x128.Idx) :
    ∃ t : Fin cfg0.N, (cfg0.win 5).flush t = true ∧ i ∈ ((cfg0.win 5).blk t).view.set := by
  have hi0 : (i 0).val < 8192 := (i 0).isLt
  have hi1 : (i 1).val < 128 := (i 1).isLt
  have hlt : 4 * ((i 0).val / 256) + 3 < cfg0.N := by rw [show cfg0.N = 128 from N_0]; omega
  obtain ⟨e0, e1⟩ := idx5 ⟨4 * ((i 0).val / 256) + 3, hlt⟩
  have ht : (⟨4 * ((i 0).val / 256) + 3, hlt⟩ : Fin cfg0.N).val = 4 * ((i 0).val / 256) + 3 := rfl
  refine ⟨⟨4 * ((i 0).val / 256) + 3, hlt⟩, (flush0_5 _).mpr (by rw [ht]; omega), ?_⟩
  show i ∈ ((View.whole main_v4).slice (win0_5.rect ⟨4 * ((i 0).val / 256) + 3, hlt⟩)).set
  rw [View.set_slice_whole, Rect.mem_set_unit]
  intro a
  match a with
  | ⟨0, _⟩ =>
    show win0_5.index ⟨4 * ((i 0).val / 256) + 3, hlt⟩ (0 : Fin 2) * 256 ≤ (i 0).val
      ∧ (i 0).val < win0_5.index ⟨4 * ((i 0).val / 256) + 3, hlt⟩ (0 : Fin 2) * 256 + 256
    rw [e0, ht]; omega
  | ⟨1, _⟩ =>
    show win0_5.index ⟨4 * ((i 0).val / 256) + 3, hlt⟩ (1 : Fin 2) * 128 ≤ (i 1).val
      ∧ (i 1).val < win0_5.index ⟨4 * ((i 0).val / 256) + 3, hlt⟩ (1 : Fin 2) * 128 + 128
    rw [e1]; omega

/-- The result array after the run is the specified result. -/
theorem final (c : Dev nD) : (dats m 0 c).arrAt 5 cfg0.N = G m c :=
  (dats m 0 c).arrAt_eq_of_cover 5 (G m c) (fun t hf => flushed_eq m c t hf) (cover c)

/-- The kernel's run: it terminates with the result array at the specified result and the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Acc

end
-- ==== Proof.RefValue.lean ====
/-
  The reference program's result, at the ideal values, is the specified result.

  The reference forms the dense part X·W, the four products (A_c·X)·Wa_c, takes their positive parts, sums those over the
  channel axis starting from zero, adds the dense part and then the bias (a row, repeated down the rows), and takes the
  positive part. Entry by entry that is `max (xw + (0 + ∑ c, msg c) + b) 0`, which the specification shows equal to the
  running-sum form.
-/
import proofs.«155809_j77206332113740_1_alg».proof.Proof.Gen.ReferenceIdeal.Read
import proofs.«155809_j77206332113740_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- One channel's positive part at (c, n, o) is that channel's message at row `n`, column `o`. -/
theorem msg_eq (x0 : FVec Ideal S8192x128 .f32) (x1 : FVec Ideal S4x8192x8192 .f32) (x3 : FVec Ideal S4x128x128 .f32)
    (c : Fin 4) (n : Fin 8192) (o : Fin 128) :
    val_main_v3 (F := Ideal) x0 x1 x3 (ix3 c n o)
      = Gcn.msg (fun n k => x0 (ix2 n k)) (fun c n k => x1 (ix3 c n k)) (fun c f o => x3 (ix3 c f o)) c n o := by
  rw [val_main_v3_apply, val_main_v2_apply, val_main_call0_v0_apply, val_main_call0_cst_apply]
  show max (∑ k : Fin 128, val_main_v1 (F := Ideal) x0 x1 (lidx_main_v2 (ix3 c n o) k) * x3 (ridx_main_v2 (ix3 c n o) k))
    (Ideal.ofBits .f32 0x00000000#32) = _
  rw [Ideal.ofBits_zero_f32]
  unfold Gcn.msg
  refine congrArg (max · 0) (Finset.sum_congr rfl fun f _ => ?_)
  rw [val_main_v1_apply]
  refine congrArg₂ (· * ·) (Finset.sum_congr rfl fun k _ => congrArg₂ (· * ·) (congrArg x1 ?_) (congrArg x0 ?_)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl | ⟨1, _⟩ => rfl | ⟨2, _⟩ => rfl)

/-- THE REFERENCE IS THE SPECIFICATION: its last stage, as a function of the five arguments, is the specified result. -/
theorem ref_eq (x0 : FVec Ideal S8192x128 .f32) (x1 : FVec Ideal S4x8192x8192 .f32) (x2 : FVec Ideal S128x128 .f32)
    (x3 : FVec Ideal S4x128x128 .f32) (x4 : FVec Ideal S128 .f32) :
    val_main_v9 (F := Ideal) x0 x1 x2 x3 x4 = Gcn.result x0 x1 x2 x3 x4 := by
  funext i
  obtain ⟨n, o, rfl⟩ : ∃ (n : Fin 8192) (o : Fin 128), i = ix2 n o := ⟨i 0, i 1, eq_ix2 i⟩
  rw [val_main_v9_apply, val_main_v8_apply, val_main_v5_apply, val_main_v0_apply, val_main_v4_apply, val_main_v7_apply,
    val_main_v6_apply, val_main_call1_v0_apply, val_main_call1_cst_apply, val_main_cst_apply]
  show max ((∑ k : Fin 128, x0 (lidx_main_v0 (ix2 n o) k) * x2 (ridx_main_v0 (ix2 n o) k))
      + (Ideal.ofBits .f32 0x00000000#32 + ∑ k : Fin 4, val_main_v3 (F := Ideal) x0 x1 x3 (idx_main_v4 (ix2 n o) k))
      + x4 (idx_main_v6 (idx_main_v7 (ix2 n o)))) (Ideal.ofBits .f32 0x00000000#32) = _
  rw [Ideal.ofBits_zero_f32]
  refine Eq.trans ?_ (Gcn.out_eq_sum_first (fun n k => x0 (ix2 n k)) (fun c n k => x1 (ix3 c n k)) (fun k o => x2 (ix2 k o))
    (fun c f o => x3 (ix3 c f o)) (fun o => x4 (ix1 o)) n o)
  unfold Gcn.xw
  refine congrArg₂ (fun a b => max (a + b) 0)
    (congrArg₂ (· + ·) (Finset.sum_congr rfl fun k _ => congrArg₂ (· * ·) (congrArg x0 ?_) (congrArg x2 ?_))
      (congrArg (0 + ·) (Finset.sum_congr rfl fun c _ => ?_))) (congrArg x4 ?_)
  · exact funext fun a => Fin.ext (by match a with | ⟨0, _⟩ => rfl | ⟨1, _⟩ => rfl)
  · exact funext fun a => Fin.ext (by match a with | ⟨0, _⟩ => rfl | ⟨1, _⟩ => rfl)
  · have e : idx_main_v4 (ix2 n o) c = ix3 c n o :=
      funext fun a => Fin.ext (by match a with | ⟨0, _⟩ => rfl | ⟨1, _⟩ => rfl | ⟨2, _⟩ => rfl)
    rw [e, msg_eq]
  · exact funext fun a => Fin.ext (by match a with | ⟨0, _⟩ => rfl)

end Cert.ReferenceIdeal.RefValue

end
-- ==== Proof.lean ====
/-
  The kernel and its reference compute one function, over the extended reals.

  For node features X (8192 × 128), four adjacency channels A_c (8192 × 8192), a weight W (128 × 128), per-channel weights
  Wa_c (128 × 128) and a bias b (128), both programs return, at row n and column o,

      max (∑ k, X n k · W k o  +  ∑ c, max (∑ f, (∑ j, A_c n j · X j f) · Wa_c f o) 0  +  b o) 0.

  The kernel walks a grid of 32 row tiles by 4 channels. It keeps a running sum per row tile in a scratch tile: the first
  channel resets it to the dense part X·W of the tile, every channel adds its message, the last channel adds the bias,
  takes the positive part and writes the tile out. The reference forms the four messages whole, sums them over the
  channel axis from zero, then adds the dense part and the bias. The narrowing of X, W, Wa, of the adjacency tile and of
  the first product to a 16-bit float format is the identity on ideal values, and a matrix product into a zero
  accumulator is the plain sum over the contracted axis, so the two sides differ only in the grouping of a sum of six
  terms. Addition on the extended reals is a commutative monoid, so they agree at every input: the precondition's
  finiteness is never used.

  The modules: the specification and its regrouping (Spec); the body's three stored values at an entry (KernelPay, over
  the general product lemma LibMatmulAt); what each control case leaves (KernelPieces); the input tiles as entries of the
  arguments (KernelBlocks); the induction over the grid points, the written-back tiles and their cover (KernelAcc); the
  reference's stages read at an entry (RefValue). The three frames come from the generated frame runs; the ideal pass
  rewrote nothing, so the preservation claim is trivial.
-/
import proofs.«155809_j77206332113740_1_alg».proof.Defs
import proofs.«155809_j77206332113740_1_alg».proof.Proof.Gen.Kernel
import proofs.«155809_j77206332113740_1_alg».proof.Proof.Gen.Kernel.Skeleton
import proofs.«155809_j77206332113740_1_alg».proof.Proof.Gen.Kernel.Launch
import proofs.«155809_j77206332113740_1_alg».proof.Proof.Gen.Kernel.Points
import proofs.«155809_j77206332113740_1_alg».proof.Proof.Gen.Kernel.Frame
import proofs.«155809_j77206332113740_1_alg».proof.Proof.Gen.KernelIdeal
import proofs.«155809_j77206332113740_1_alg».proof.Proof.Gen.KernelIdeal.Skeleton
import proofs.«155809_j77206332113740_1_alg».proof.Proof.Gen.KernelIdeal.Launch
import proofs.«155809_j77206332113740_1_alg».proof.Proof.Gen.KernelIdeal.Points
import proofs.«155809_j77206332113740_1_alg».proof.Proof.Gen.KernelIdeal.Frame
import proofs.«155809_j77206332113740_1_alg».proof.Proof.Gen.ReferenceIdeal
import proofs.«155809_j77206332113740_1_alg».proof.Proof.Gen.Pre_finite_inputs
import proofs.«155809_j77206332113740_1_alg».proof.Proof.Gen.KernelIdeal.Value
import proofs.«155809_j77206332113740_1_alg».proof.Proof.Gen.ReferenceIdeal.Run
import proofs.«155809_j77206332113740_1_alg».proof.Proof.Gen.ReferenceIdeal.Read
import proofs.«155809_j77206332113740_1_alg».proof.Proof.KernelAcc
import proofs.«155809_j77206332113740_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From arguments that agree, the kernel's result array ends at the specified result of its arguments, and the reference's
    last stage is the specified result of its own: the same array. -/
theorem algebraic : Cert.algebraic_KernelIdeal_ReferenceIdeal := by
  intro m ρ m' ρ' _ hagree
  refine ⟨fun c => Cert.KernelIdeal.Acc.G m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
